-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S200000x512 : Shape := ⟨2, ![200000, 512]⟩
abbrev S200000 : Shape := ⟨1, ![200000]⟩
abbrev S1024x512 : Shape := ⟨2, ![1024, 512]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S200000x512 : S_.BroadcastsInDim S200000x512 (![] : Fin 0 → Fin S200000x512.rank)
  reducesTo_S200000x512_S_d0_1 : S200000x512.ReducesTo [0, 1] S_
  bcast_S_S1024x512 : S_.BroadcastsInDim S1024x512 (![] : Fin 0 → Fin S1024x512.rank)
  reducesTo_S1024x512_S_d0_1 : S1024x512.ReducesTo [0, 1] S_
  bcast_S_S200000 : S_.BroadcastsInDim S200000 (![] : Fin 0 → Fin S200000.rank)
  reducesTo_S200000_S_d0 : S200000.ReducesTo [0] S_

variable [Facts]

def fn_part1 {F : FTy → Type} [FloatOps F] (main_arg2 : IVec S200000 32) (main_arg3 : IVec S200000 32) (main_v13 : IVec S_ 1) (main_v15 : IVec S200000 1) (main_c_5 : IVec S_ 32) : IVec S_ 1 :=
  let main_v16 : IVec S200000 32 := broadcastInDim S200000 ![] bcast_S_S200000 main_c_5
  let main_v17 : IVec S200000 1 := cmpi .slt main_arg2 main_v16
  let main_v18 : IVec S200000 1 := andi main_v15 main_v17
  let main_c_6 : IVec S_ 1 := constantI S_ 1 1#1
  let main_v19 : IVec S_ 1 := (fun x v => Host.reduce IntOp.andi x v reducesTo_S200000_S_d0 h_S_) main_v18 main_c_6
  let main_v20 : IVec S_ 1 := andi main_v13 main_v19
  let main_c_7 : IVec S_ 32 := constantI S_ 32 4294917296#32
  let main_v21 : IVec S200000 32 := broadcastInDim S200000 ![] bcast_S_S200000 main_c_7
  let main_v22 : IVec S200000 1 := cmpi .sge main_arg3 main_v21
  let main_c_8 : IVec S_ 32 := constantI S_ 32 50000#32
  let main_v23 : IVec S200000 32 := broadcastInDim S200000 ![] bcast_S_S200000 main_c_8
  let main_v24 : IVec S200000 1 := cmpi .slt main_arg3 main_v23
  let main_v25 : IVec S200000 1 := andi main_v22 main_v24
  let main_c_9 : IVec S_ 1 := constantI S_ 1 1#1
  let main_v26 : IVec S_ 1 := (fun x v => Host.reduce IntOp.andi x v reducesTo_S200000_S_d0 h_S_) main_v25 main_c_9
  let main_v27 : IVec S_ 1 := andi main_v20 main_v26
  main_v27

def fn {F : FTy → Type} [FloatOps F] (main_arg0 : FVec F S50000x256 .f32) (main_arg1 : FVec F S200000x512 .f32) (main_arg2 : IVec S200000 32) (main_arg3 : IVec S200000 32) (main_arg4 : FVec F S1024x512 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S200000x512 .f32 := Host.absf main_arg1
  let main_cst_0 : FVec F S_ .f32 := constant S_ .f32 0x7F800000#32
  let main_v5 : FVec F S200000x512 .f32 := broadcastInDim S200000x512 ![] bcast_S_S200000x512 main_cst_0
  let main_v6 : IVec S200000x512 1 := cmpf .olt main_v4 main_v5
  let main_c_1 : IVec S_ 1 := constantI S_ 1 1#1
  let main_v7 : IVec S_ 1 := (fun x v => Host.reduce IntOp.andi x v reducesTo_S200000x512_S_d0_1 h_S_) main_v6 main_c_1
  let main_v8 : IVec S_ 1 := andi main_v3 main_v7
  let main_v9 : FVec F S1024x512 .f32 := Host.absf main_arg4
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_c_4 : IVec S_ 32 := constantI S_ 32 4294917296#32
  let main_v14 : IVec S200000 32 := broadcastInDim S200000 ![] bcast_S_S200000 main_c_4
  let main_v15 : IVec S200000 1 := cmpi .sge main_arg2 main_v14
  let main_c_5 : IVec S_ 32 := constantI S_ 32 50000#32
  fn_part1 (F := F) main_arg2 main_arg3 main_v13 main_v15 main_c_5
-- ==== Kernel.lean ====
abbrev S50000x256 : Shape := ⟨2, ![50000, 256]⟩
abbrev S200000x512 : Shape := ⟨2, ![200000, 512]⟩
abbrev S200000 : Shape := ⟨1, ![200000]⟩
abbrev S1024x512 : Shape := ⟨2, ![1024, 512]⟩
abbrev S_ : Shape := ⟨0, ![]⟩
abbrev S200000x1 : Shape := ⟨2, ![200000, 1]⟩
abbrev S1 : Shape := ⟨1, ![1]⟩
abbrev S1x1 : Shape := ⟨2, ![1, 1]⟩
abbrev S200000x256 : Shape := ⟨2, ![200000, 256]⟩
abbrev S256x512 : Shape := ⟨2, ![256, 512]⟩
abbrev S512x512 : Shape := ⟨2, ![512, 512]⟩
abbrev S2000x256 : Shape := ⟨2, ![2000, 256]⟩
abbrev S2000x512 : Shape := ⟨2, ![2000, 512]⟩

abbrev nBuf : Space → Nat
  | .hbm => 58
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S200000x512, .f32⟩
  | .hbm, ⟨2, _⟩ => ⟨S200000, .i32⟩
  | .hbm, ⟨3, _⟩ => ⟨S200000, .i32⟩
  | .hbm, ⟨4, _⟩ => ⟨S1024x512, .f32⟩
  | .hbm, ⟨5, _⟩ => ⟨S_, .i32⟩
  | .hbm, ⟨6, _⟩ => ⟨S200000, .i32⟩
  | .hbm, ⟨7, _⟩ => ⟨S200000, .i1⟩
  | .hbm, ⟨8, _⟩ => ⟨S_, .i32⟩
  | .hbm, ⟨9, _⟩ => ⟨S200000, .i32⟩
  | .hbm, ⟨10, _⟩ => ⟨S200000, .i32⟩
  | .hbm, ⟨11, _⟩ => ⟨S200000, .i32⟩
  | .hbm, ⟨12, _⟩ => ⟨S200000x1, .i32⟩
  | .hbm, ⟨13, _⟩ => ⟨S1, .i32⟩
  | .hbm, ⟨14, _⟩ => ⟨S_, .i32⟩
  | .hbm, ⟨15, _⟩ => ⟨S200000x1, .i32⟩
  | .hbm, ⟨16, _⟩ => ⟨S200000x1, .i1⟩
  | .hbm, ⟨17, _⟩ => ⟨S1x1, .i32⟩
  | .hbm, ⟨18, _⟩ => ⟨S200000x1, .i32⟩
  | .hbm, ⟨19, _⟩ => ⟨S200000x1, .i1⟩
  | .hbm, ⟨20, _⟩ => ⟨S200000x1, .i1⟩
  | .hbm, ⟨21, _⟩ => ⟨S_, .i1⟩
  | .hbm, ⟨22, _⟩ => ⟨S200000, .i1⟩
  | .hbm, ⟨23, _⟩ => ⟨S200000x256, .f32⟩
  | .hbm, ⟨24, _⟩ => ⟨S200000x256, .i1⟩
  | .hbm, ⟨25, _⟩ => ⟨S_, .f32⟩
  | .hbm, ⟨26, _⟩ => ⟨S200000x256, .f32⟩
  | .hbm, ⟨27, _⟩ => ⟨S200000x256, .f32⟩
  | .hbm, ⟨28, _⟩ => ⟨S_, .i32⟩
  | .hbm, ⟨29, _⟩ => ⟨S200000, .i32⟩
  | .hbm, ⟨30, _⟩ => ⟨S200000, .i1⟩
  | .hbm, ⟨31, _⟩ => ⟨S_, .i32⟩
  | .hbm, ⟨32, _⟩ => ⟨S200000, .i32⟩
  | .hbm, ⟨33, _⟩ => ⟨S200000, .i32⟩
  | .hbm, ⟨34, _⟩ => ⟨S200000, .i32⟩
  | .hbm, ⟨35, _⟩ => ⟨S200000x1, .i32⟩
  | .hbm, ⟨36, _⟩ => ⟨S1, .i32⟩
  | .hbm, ⟨37, _⟩ => ⟨S_, .i32⟩
  | .hbm, ⟨38, _⟩ => ⟨S200000x1, .i32⟩
  | .hbm, ⟨39, _⟩ => ⟨S200000x1, .i1⟩
  | .hbm, ⟨40, _⟩ => ⟨S1x1, .i32⟩
  | .hbm, ⟨41, _⟩ => ⟨S200000x1, .i32⟩
  | .hbm, ⟨42, _⟩ => ⟨S200000x1, .i1⟩
  | .hbm, ⟨43, _⟩ => ⟨S200000x1, .i1⟩
  | .hbm, ⟨44, _⟩ => ⟨S_, .i1⟩
  | .hbm, ⟨45, _⟩ => ⟨S200000, .i1⟩
  | .hbm, ⟨46, _⟩ => ⟨S200000x256, .f32⟩
  | .hbm, ⟨47, _⟩ => ⟨S200000x256, .i1⟩
  | .hbm, ⟨48, _⟩ => ⟨S_, .f32⟩
  | .hbm, ⟨49, _⟩ => ⟨S200000x256, .f32⟩
  | .hbm, ⟨50, _⟩ => ⟨S200000x256, .f32⟩
  | .hbm, ⟨51, _⟩ => ⟨S256x512, .f32⟩
  | .hbm, ⟨52, _⟩ => ⟨S256x512, .bf16⟩
  | .hbm, ⟨53, _⟩ => ⟨S256x512, .f32⟩
  | .hbm, ⟨54, _⟩ => ⟨S256x512, .bf16⟩
  | .hbm, ⟨55, _⟩ => ⟨S512x512, .f32⟩
  | .hbm, ⟨56, _⟩ => ⟨S512x512, .bf16⟩
  | .hbm, ⟨57, _⟩ => ⟨S200000x512, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x512, .f32⟩
  | .local _ .vmem, ⟨5, _⟩ => ⟨S2000x512, .f32⟩
  | .local _ .vmem, ⟨6, _⟩ => ⟨S256x512, .bf16⟩
  | .local _ .vmem, ⟨7, _⟩ => ⟨S256x512, .bf16⟩
  | .local _ .vmem, ⟨8, _⟩ => ⟨S512x512, .bf16⟩
  | .local _ .vmem, ⟨9, _⟩ => ⟨S2000x512, .f32⟩
  | .local _ .vmem, ⟨10, _⟩ => ⟨S2000x512, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x256_0 : S200000.BroadcastsInDim S200000x256 (![0] : Fin 1 → Fin S200000x256.rank)
  bcast_S_S200000x256 : S_.BroadcastsInDim S200000x256 (![] : Fin 0 → Fin S200000x256.rank)
  slices_S1024x512_S256x512_0_0 : S1024x512.Slices ![0, 0] S256x512
  bitsLt_bf16_f32 : FTy.bits .bf16 < FTy.bits .f32
  slices_S1024x512_S256x512_256_0 : S1024x512.Slices ![256, 0] S256x512
  slices_S1024x512_S512x512_512_0 : S1024x512.Slices ![512, 0] S512x512
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x512_S2000x512_0_0 : ∀ a, (![0, 0] : Fin 2 → Nat) a + S2000x512.size a ≤ S2000x512.size a
  h_S2000x512 : 0 < S2000x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  gather_S50000x256_S200000x1_S200000x256_1_0_n_n_0_1_1256_wf : GatherDims.WF S50000x256 S200000x1 S200000x256 [1] [0] [] [0] [] 1 ![1, 256]
  dot_S2000x256_S256x512_S2000x512_1_0_0_1_n_n_wf : DotDims.WF S2000x256 S256x512 S2000x512 [1] [0] [0] [1] [] []
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S200000x256.size a
  hwx0_1 : ∀ i : grid0.Coords, EltTy.bits .f32 = 32 ∨ (Rect.block (s := S200000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S200000x512.size a
  hwx0_2 : ∀ i : grid0.Coords, EltTy.bits .f32 = 32 ∨ (Rect.block (s := S200000x512) S2000x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x512.size a ≤ S200000x512.size a
  hwx0_6 : ∀ i : grid0.Coords, EltTy.bits .f32 = 32 ∨ (Rect.block (s := S200000x512) S2000x512.size (cc0_transform_6 i) (hinb0_6 i)).WholeWords (EltTy.packing .f32)

variable [Facts₀]

def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_v0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2000x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x256 : Shape := ⟨2, ![50000, 256]⟩
abbrev S200000x512 : Shape := ⟨2, ![200000, 512]⟩
abbrev S200000 : Shape := ⟨1, ![200000]⟩
abbrev S1024x512 : Shape := ⟨2, ![1024, 512]⟩
abbrev S_ : Shape := ⟨0, ![]⟩
abbrev S200000x1 : Shape := ⟨2, ![200000, 1]⟩
abbrev S200000x256 : Shape := ⟨2, ![200000, 256]⟩
abbrev S200000x1024 : Shape := ⟨2, ![200000, 1024]⟩

abbrev nBuf : Space → Nat
  | .hbm => 34
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S200000x512, .f32⟩
  | .hbm, ⟨2, _⟩ => ⟨S200000, .i32⟩
  | .hbm, ⟨3, _⟩ => ⟨S200000, .i32⟩
  | .hbm, ⟨4, _⟩ => ⟨S1024x512, .f32⟩
  | .hbm, ⟨5, _⟩ => ⟨S_, .i32⟩
  | .hbm, ⟨6, _⟩ => ⟨S200000, .i32⟩
  | .hbm, ⟨7, _⟩ => ⟨S200000, .i1⟩
  | .hbm, ⟨8, _⟩ => ⟨S_, .i32⟩
  | .hbm, ⟨9, _⟩ => ⟨S200000, .i32⟩
  | .hbm, ⟨10, _⟩ => ⟨S200000, .i32⟩
  | .hbm, ⟨11, _⟩ => ⟨S200000, .i32⟩
  | .hbm, ⟨12, _⟩ => ⟨S200000x1, .i32⟩
  | .hbm, ⟨13, _⟩ => ⟨S200000x256, .f32⟩
  | .hbm, ⟨14, _⟩ => ⟨S_, .i32⟩
  | .hbm, ⟨15, _⟩ => ⟨S200000, .i32⟩
  | .hbm, ⟨16, _⟩ => ⟨S200000, .i1⟩
  | .hbm, ⟨17, _⟩ => ⟨S_, .i32⟩
  | .hbm, ⟨18, _⟩ => ⟨S200000, .i32⟩
  | .hbm, ⟨19, _⟩ => ⟨S200000, .i32⟩
  | .hbm, ⟨20, _⟩ => ⟨S200000, .i32⟩
  | .hbm, ⟨21, _⟩ => ⟨S200000x1, .i32⟩
  | .hbm, ⟨22, _⟩ => ⟨S200000x256, .f32⟩
  | .hbm, ⟨23, _⟩ => ⟨S200000x1024, .f32⟩
  | .hbm, ⟨24, _⟩ => ⟨S200000x512, .f32⟩
  | .hbm, ⟨25, _⟩ => ⟨S200000x512, .f32⟩
  | .hbm, ⟨26, _⟩ => ⟨S200000x512, .f32⟩
  | .hbm, ⟨27, _⟩ => ⟨S_, .f32⟩
  | .hbm, ⟨28, _⟩ => ⟨S200000x512, .f32⟩
  | .hbm, ⟨29, _⟩ => ⟨S200000x512, .f32⟩
  | .hbm, ⟨30, _⟩ => ⟨S_, .f32⟩
  | .hbm, ⟨31, _⟩ => ⟨S200000x512, .f32⟩
  | .hbm, ⟨32, _⟩ => ⟨S200000x512, .f32⟩
  | .hbm, ⟨33, _⟩ => ⟨S200000x512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x256_S200000x256_S200000x512_S200000x1024_d1 : Shape.Concatenates [S200000x256, S200000x256, S200000x512] S200000x1024 1
  bcast_S_S200000x512 : S_.BroadcastsInDim S200000x512 (![] : Fin 0 → Fin S200000x512.rank)
  gather_S50000x256_S200000x1_S200000x256_1_0_n_n_0_1_1256_wf : GatherDims.WF S50000x256 S200000x1 S200000x256 [1] [0] [] [0] [] 1 ![1, 256]
  dot_S200000x1024_S1024x512_S200000x512_1_0_0_1_n_n_wf : DotDims.WF S200000x1024 S1024x512 S200000x512 [1] [0] [0] [1] [] []

variable [Facts₀]

def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S200000x1024_S1024x512_S200000x512_1_0_0_1_n_n : DotDims S200000x1024 S1024x512 S200000x512 where
  lhsContracting := [1]
  rhsContracting := [0]
  lhsNonContracting := [0]
  rhsNonContracting := [1]
  lhsBatch := []
  rhsBatch := []
  wf := dot_S200000x1024_S1024x512_S200000x512_1_0_0_1_n_n_wf

class Facts : Prop extends Facts₀ where

variable [Facts]
-- ==== Proof.IndexDomain.lean ====
import proofs.«405418_j3985729650842_1_alg».proof.Pre_finite_inputs
import proofs.«405418_j3985729650842_1_alg».proof.Proof.Gen.Pre_finite_inputs
import Idealize.ShloMosaic.Lib.ReduceAll
import Idealize.ShloMosaic.Lib.Affine

open Idealize.ShloMosaic

namespace Cert.IndexDomain

/-- Adding 50000 to a word whose signed value lies in [-50000, 0) does not wrap:
    the sum's signed value is the integer sum, which lies in [0, 50000). -/
theorem toInt_add_50000 (x : BitVec 32) (hlo : -50000 ≤ x.toInt) (hneg : x.toInt < 0) :
    (x + 50000#32).toInt = x.toInt + 50000 := by
  rw [BitVec.toInt_add, show (50000#32 : BitVec 32).toInt = 50000 from by decide]
  simp only [Int.bmod_def]
  omega

/-- (1) one index word. If its signed value lies in [-50000, 50000), then the wrap of a negative index,
    select(x < 0, x + 50000, x), lies in [0, 49999]: both signed comparisons answer the bit 1. -/
theorem wrap_mask_one (x : BitVec 32) (hlo : -50000 ≤ x.toInt) (hhi : x.toInt < 50000) :
    IntOp.andi (IntOp.cmpi .sge (Scalar.select (IntOp.cmpi .slt x 0#32) (IntOp.addi x 50000#32) x) 0#32)
               (IntOp.cmpi .sle (Scalar.select (IntOp.cmpi .slt x 0#32) (IntOp.addi x 50000#32) x) 49999#32) = 1#1 := by
  have h0 : (0#32 : BitVec 32).toInt = 0 := by decide
  have h1 : (49999#32 : BitVec 32).toInt = 49999 := by decide
  by_cases hneg : x.toInt < 0
  · have hc : IntOp.cmpi .slt x 0#32 = 1#1 := IntOp.cmpi_slt.2 (by rw [h0]; exact hneg)
    have hs : Scalar.select (IntOp.cmpi .slt x 0#32) (IntOp.addi x 50000#32) x = x + 50000#32 := by
      rw [hc]; rfl
    rw [hs]
    have hv := toInt_add_50000 x hlo hneg
    exact IntOp.andi_eq_one.2 ⟨IntOp.cmpi_sge.2 (by rw [h0, hv]; omega), IntOp.cmpi_sle.2 (by rw [h1, hv]; omega)⟩
  · have hc : ¬ IntOp.cmpi .slt x 0#32 = 1#1 := fun h => hneg (by have := IntOp.cmpi_slt.1 h; rw [h0] at this; exact this)
    have hs : Scalar.select (IntOp.cmpi .slt x 0#32) (IntOp.addi x 50000#32) x = x := if_neg hc
    rw [hs]
    exact IntOp.andi_eq_one.2 ⟨IntOp.cmpi_sge.2 (by rw [h0]; omega), IntOp.cmpi_sle.2 (by rw [h1]; omega)⟩

/-- Two signed comparisons of one word against the words of -50000 and 50000, both answering the bit 1,
    bound its signed value: -50000 ≤ v < 50000. -/
theorem range_of_bits (v : BitVec 32)
    (h : IntOp.andi (IntOp.cmpi .sge v 4294917296#32) (IntOp.cmpi .slt v 50000#32) = 1#1) :
    -50000 ≤ v.toInt ∧ v.toInt < 50000 := by
  obtain ⟨hge, hlt⟩ := IntOp.andi_eq_one.1 h
  have hlo := IntOp.cmpi_sge.1 hge
  have hhi := IntOp.cmpi_slt.1 hlt
  rw [show (4294917296#32 : BitVec 32).toInt = -50000 from by decide] at hlo
  rw [show (50000#32 : BitVec 32).toInt = 50000 from by decide] at hhi
  exact ⟨hlo, hhi⟩

/-- The rank-0 shape has a single index. -/
local instance : Subsingleton Cert.Pre_finite_inputs.S_.Idx := ⟨fun a b => funext fun d => d.elim0⟩

/-- (2) what the precondition says of the two index arrays, at any float instance. -/
theorem idx_range {F : FTy → Type} [FloatOps F] [Cert.Pre_finite_inputs.Facts]
    (a0 : FVec F Cert.Pre_finite_inputs.S50000x256 .f32) (a1 : FVec F Cert.Pre_finite_inputs.S200000x512 .f32)
    (a2 a3 : IVec Cert.Pre_finite_inputs.S200000 32) (a4 : FVec F Cert.Pre_finite_inputs.S1024x512 .f32)
    (h : Cert.Pre_finite_inputs.fn (F := F) a0 a1 a2 a3 a4 = fun _ => 1#1) :
    (∀ e, -50000 ≤ (a2 e).toInt ∧ (a2 e).toInt < 50000) ∧ (∀ e, -50000 ≤ (a3 e).toInt ∧ (a3 e).toInt < 50000) := by
  -- the precondition's one word, with its chain of operations in view
  have h0 := congrFun h (fun a => a.elim0)
  dsimp only [Cert.Pre_finite_inputs.fn, Cert.Pre_finite_inputs.fn_part1] at h0
  -- the outer conjunctions: (floats finite ∧ all(range of arg2)) ∧ all(range of arg3)
  obtain ⟨h20, h26⟩ := IntOp.andi_eq_one.1 h0
  obtain ⟨_, h19⟩ := IntOp.andi_eq_one.1 h20
  -- a reduce by `and` from 1 that is 1 had a 1 at every element; a broadcast scalar constant read at an element is that constant
  exact ⟨fun e => range_of_bits (a2 e) (Host.reduce_andi_all _ _ _ _ _ h19 e),
         fun e => range_of_bits (a3 e) (Host.reduce_andi_all _ _ _ _ _ h26 e)⟩

end Cert.IndexDomain
-- ==== Proof.Spec.lean ====
import Idealize.ShloMosaic.PureOps.Ideal
import Idealize.ShloMosaic.Lib.ValueIdx
import Mathlib.Algebra.BigOperators.Fin

/-!
# The layer as one function of its arrays

An edge `r` of the graph carries three rows: the node features of its two end points, `gi r` and `gj r`
(256 numbers each), and its own message `mij r` (512 numbers). The layer multiplies the row of 1024 numbers
they make, laid end to end, by a weight matrix `W` of 1024 rows and 512 columns, and applies the activation
`x ↦ x · logistic x` to each of the 512 results.

`lin` writes entry `(r, q)` of the product as three contractions — over the first 256 rows of `W`, the next
256, and the last 512 —, and `out` is the activation of it. `sum_split` is the one law of the certificate: a sum
of 1024 terms is the sum of its first 256, its next 256 and its last 512 terms. It regroups a sum and moves
nothing across a product, so it holds for all extended reals, the infinite ones included.
-/

noncomputable section

namespace Cert.Spec

open Idealize.ShloMosaic Idealize.ShloMosaic.ValueIdx

/-- A sum over 1024 positions, cut at 256 and at 512. -/
theorem sum_split (f : Fin 1024 → EReal) :
    ∑ k : Fin 1024, f k
      = (∑ k : Fin 256, f ⟨k.val, by have := k.isLt; omega⟩ + ∑ k : Fin 256, f ⟨256 + k.val, by have := k.isLt; omega⟩)
        + ∑ k : Fin 512, f ⟨512 + k.val, by have := k.isLt; omega⟩ := by
  have h1 : ∑ k : Fin 1024, f k = ∑ i : Fin 512, f (Fin.castAdd 512 i) + ∑ i : Fin 512, f (Fin.natAdd 512 i) :=
    Fin.sum_univ_add (a := 512) (b := 512) f
  have h2 : ∑ i : Fin 512, f (Fin.castAdd 512 i)
      = ∑ i : Fin 256, f (Fin.castAdd 512 (Fin.castAdd 256 i)) + ∑ i : Fin 256, f (Fin.castAdd 512 (Fin.natAdd 256 i)) :=
    Fin.sum_univ_add (a := 256) (b := 256) (fun i => f (Fin.castAdd 512 i))
  rw [h1, h2]
  rfl

/-- Entry `(r, q)` of the product of the edge's 1024 numbers with `W`, as three contractions: the first end
    point's features against rows 0 … 255 of `W`, the second's against rows 256 … 511, the message against rows
    512 … 1023. -/
def lin (gi gj : (⟨2, ![200000, 256]⟩ : Shape).Idx → EReal) (mij : (⟨2, ![200000, 512]⟩ : Shape).Idx → EReal)
    (W : (⟨2, ![1024, 512]⟩ : Shape).Idx → EReal) (r : Fin 200000) (q : Fin 512) : EReal :=
  (∑ k : Fin 256, gi (ix2 r k) * W (ix2 (⟨k.val, by have := k.isLt; omega⟩ : Fin 1024) q)
      + ∑ k : Fin 256, gj (ix2 r k) * W (ix2 (⟨256 + k.val, by have := k.isLt; omega⟩ : Fin 1024) q))
    + ∑ k : Fin 512, mij (ix2 r k) * W (ix2 (⟨512 + k.val, by have := k.isLt; omega⟩ : Fin 1024) q)

/-- The activation: `x · logistic x`. -/
def act (x : EReal) : EReal := x * Ideal.logistic x

/-- The layer's result, entry by entry. -/
def out (gi gj : (⟨2, ![200000, 256]⟩ : Shape).Idx → EReal) (mij : (⟨2, ![200000, 512]⟩ : Shape).Idx → EReal)
    (W : (⟨2, ![1024, 512]⟩ : Shape).Idx → EReal) : (⟨2, ![200000, 512]⟩ : Shape).Idx → EReal :=
  fun i => act (lin gi gj mij W (i 0) (i 1))

end Cert.Spec

end
-- ==== Proof.LibConcatCols.lean ====
import Idealize.ShloMosaic.Lib.ValueIdx
import Idealize.ShloMosaic.Lib.Pipeline.Value

/-!
# A concatenation of three blocks of columns, read at an index

Three arrays with the same `n` rows and `a`, `b`, `c` columns laid side by side (a concatenation along axis 1)
make an array of `n` rows and `K = a + b + c` columns. Read at row `e`:

* column `k < a` is the first array's element `(e, k)` (`concat3_left`);
* column `a + k` with `k < b` is the second array's element `(e, k)` (`concat3_mid`);
* column `a + b + k` with `k < c` is the third array's element `(e, k)` (`concat3_right`).

These are the three forms a sum over a row of the concatenation splits into. The widths may differ; the result's
width is a separate extent `K` with the hypothesis `a + b + c = K`, so that the statements apply where `K` is a
numeral; the element type is arbitrary, and so is the proof of the operation's side condition (that the three shapes
laid end to end along axis 1 make the result shape). Each comes from a form at ANY column `j` of the result whose
value is the one named (`concat3_left_of` / `concat3_mid_of` / `concat3_right_of`: `j = k`, `j = a + k`,
`j = a + b + k` as numbers), which is the general reading of a concatenation at an index (the piece whose span along
the axis holds the coordinate) at one of the three pieces.
-/

namespace Cert.LibConcatCols

open Idealize.ShloMosaic Idealize.ShloMosaic.ValueIdx

/-! ## At a column of the result given by its value -/

/-- THE FIRST BLOCK: at row `e` and a column `j` whose value is `k < a`, the concatenation is the first array at `(e, k)`.
    No piece lies before it. -/
theorem concat3_left_of {α : Type} {n a b c K : Nat}
    (x : (⟨2, ![n, a]⟩ : Shape).Idx → α) (y : (⟨2, ![n, b]⟩ : Shape).Idx → α) (z : (⟨2, ![n, c]⟩ : Shape).Idx → α)
    (h : Shape.Concatenates [⟨2, ![n, a]⟩, ⟨2, ![n, b]⟩, ⟨2, ![n, c]⟩] ⟨2, ![n, K]⟩ 1) (e : Fin n) (j : Fin K) (k : Fin a)
    (hj : j.val = k.val) :
    concatenate ⟨2, ![n, K]⟩ 1 [⟨⟨2, ![n, a]⟩, x⟩, ⟨⟨2, ![n, b]⟩, y⟩, ⟨⟨2, ![n, c]⟩, z⟩] h (ix2 e j) = x (ix2 e k) := by
  refine concatenate_apply_piece (t := ⟨2, ![n, K]⟩) 1 [⟨⟨2, ![n, a]⟩, x⟩, ⟨⟨2, ![n, b]⟩, y⟩, ⟨⟨2, ![n, c]⟩, z⟩] h _ 0
    (show 0 < 3 by omega) ⟨2, ![n, a]⟩ x rfl rfl 0 rfl (ix2 e k) ?_ ?_
  · -- off the axis the coordinates agree: the row is the same
    intro i hi
    match i with
    | ⟨0, _⟩ => rfl
    | ⟨1, _⟩ => exact absurd (Fin.ext rfl) hi
  · -- on the axis: the widths of the pieces before, plus the position in the piece
    rw [Nat.zero_add]; exact hj.symm

/-- THE SECOND BLOCK: at row `e` and a column `j` whose value is `a + k` with `k < b`, the concatenation is the second
    array at `(e, k)`. The one piece before it has width `a`. -/
theorem concat3_mid_of {α : Type} {n a b c K : Nat}
    (x : (⟨2, ![n, a]⟩ : Shape).Idx → α) (y : (⟨2, ![n, b]⟩ : Shape).Idx → α) (z : (⟨2, ![n, c]⟩ : Shape).Idx → α)
    (h : Shape.Concatenates [⟨2, ![n, a]⟩, ⟨2, ![n, b]⟩, ⟨2, ![n, c]⟩] ⟨2, ![n, K]⟩ 1) (e : Fin n) (j : Fin K) (k : Fin b)
    (hj : j.val = a + k.val) :
    concatenate ⟨2, ![n, K]⟩ 1 [⟨⟨2, ![n, a]⟩, x⟩, ⟨⟨2, ![n, b]⟩, y⟩, ⟨⟨2, ![n, c]⟩, z⟩] h (ix2 e j) = y (ix2 e k) := by
  refine concatenate_apply_piece (t := ⟨2, ![n, K]⟩) 1 [⟨⟨2, ![n, a]⟩, x⟩, ⟨⟨2, ![n, b]⟩, y⟩, ⟨⟨2, ![n, c]⟩, z⟩] h _ 1
    (show 1 < 3 by omega) ⟨2, ![n, b]⟩ y rfl rfl a rfl (ix2 e k) ?_ ?_
  · -- off the axis the coordinates agree: the row is the same
    intro i hi
    match i with
    | ⟨0, _⟩ => rfl
    | ⟨1, _⟩ => exact absurd (Fin.ext rfl) hi
  · -- on the axis: the widths of the pieces before, plus the position in the piece
    exact hj.symm

/-- THE THIRD BLOCK: at row `e` and a column `j` whose value is `a + b + k` with `k < c`, the concatenation is the third
    array at `(e, k)`. The two pieces before it have widths `a` and `b`. -/
theorem concat3_right_of {α : Type} {n a b c K : Nat}
    (x : (⟨2, ![n, a]⟩ : Shape).Idx → α) (y : (⟨2, ![n, b]⟩ : Shape).Idx → α) (z : (⟨2, ![n, c]⟩ : Shape).Idx → α)
    (h : Shape.Concatenates [⟨2, ![n, a]⟩, ⟨2, ![n, b]⟩, ⟨2, ![n, c]⟩] ⟨2, ![n, K]⟩ 1) (e : Fin n) (j : Fin K) (k : Fin c)
    (hj : j.val = a + b + k.val) :
    concatenate ⟨2, ![n, K]⟩ 1 [⟨⟨2, ![n, a]⟩, x⟩, ⟨⟨2, ![n, b]⟩, y⟩, ⟨⟨2, ![n, c]⟩, z⟩] h (ix2 e j) = z (ix2 e k) := by
  refine concatenate_apply_piece (t := ⟨2, ![n, K]⟩) 1 [⟨⟨2, ![n, a]⟩, x⟩, ⟨⟨2, ![n, b]⟩, y⟩, ⟨⟨2, ![n, c]⟩, z⟩] h _ 2
    (show 2 < 3 by omega) ⟨2, ![n, c]⟩ z rfl rfl (a + b) rfl (ix2 e k) ?_ ?_
  · -- off the axis the coordinates agree: the row is the same
    intro i hi
    match i with
    | ⟨0, _⟩ => rfl
    | ⟨1, _⟩ => exact absurd (Fin.ext rfl) hi
  · -- on the axis: the widths of the pieces before, plus the position in the piece
    exact hj.symm

/-! ## At the three column ranges of a row -/

/-- At row `e`, column `k < a`: the first array at `(e, k)`. -/
theorem concat3_left {α : Type} {n a b c K : Nat} (habc : a + b + c = K)
    (x : (⟨2, ![n, a]⟩ : Shape).Idx → α) (y : (⟨2, ![n, b]⟩ : Shape).Idx → α) (z : (⟨2, ![n, c]⟩ : Shape).Idx → α)
    (h : Shape.Concatenates [⟨2, ![n, a]⟩, ⟨2, ![n, b]⟩, ⟨2, ![n, c]⟩] ⟨2, ![n, K]⟩ 1) (e : Fin n) (k : Fin a) :
    concatenate ⟨2, ![n, K]⟩ 1 [⟨⟨2, ![n, a]⟩, x⟩, ⟨⟨2, ![n, b]⟩, y⟩, ⟨⟨2, ![n, c]⟩, z⟩] h (ix2 e ⟨k.val, by omega⟩)
      = x (ix2 e k) :=
  concat3_left_of x y z h e _ k rfl

/-- At row `e`, column `a + k` with `k < b`: the second array at `(e, k)`. -/
theorem concat3_mid {α : Type} {n a b c K : Nat} (habc : a + b + c = K)
    (x : (⟨2, ![n, a]⟩ : Shape).Idx → α) (y : (⟨2, ![n, b]⟩ : Shape).Idx → α) (z : (⟨2, ![n, c]⟩ : Shape).Idx → α)
    (h : Shape.Concatenates [⟨2, ![n, a]⟩, ⟨2, ![n, b]⟩, ⟨2, ![n, c]⟩] ⟨2, ![n, K]⟩ 1) (e : Fin n) (k : Fin b) :
    concatenate ⟨2, ![n, K]⟩ 1 [⟨⟨2, ![n, a]⟩, x⟩, ⟨⟨2, ![n, b]⟩, y⟩, ⟨⟨2, ![n, c]⟩, z⟩] h (ix2 e ⟨a + k.val, by omega⟩)
      = y (ix2 e k) :=
  concat3_mid_of x y z h e _ k rfl

/-- At row `e`, column `a + b + k` with `k < c`: the third array at `(e, k)`. -/
theorem concat3_right {α : Type} {n a b c K : Nat} (habc : a + b + c = K)
    (x : (⟨2, ![n, a]⟩ : Shape).Idx → α) (y : (⟨2, ![n, b]⟩ : Shape).Idx → α) (z : (⟨2, ![n, c]⟩ : Shape).Idx → α)
    (h : Shape.Concatenates [⟨2, ![n, a]⟩, ⟨2, ![n, b]⟩, ⟨2, ![n, c]⟩] ⟨2, ![n, K]⟩ 1) (e : Fin n) (k : Fin c) :
    concatenate ⟨2, ![n, K]⟩ 1 [⟨⟨2, ![n, a]⟩, x⟩, ⟨⟨2, ![n, b]⟩, y⟩, ⟨⟨2, ![n, c]⟩, z⟩] h (ix2 e ⟨a + b + k.val, by omega⟩)
      = z (ix2 e k) :=
  concat3_right_of x y z h e _ k rfl

end Cert.LibConcatCols
-- ==== Proof.RefValue.lean ====
import proofs.«405418_j3985729650842_1_alg».proof.Proof.Gen.ReferenceIdeal.Read
import proofs.«405418_j3985729650842_1_alg».proof.Proof.Spec
import proofs.«405418_j3985729650842_1_alg».proof.Proof.LibConcatCols
import Idealize.ShloMosaic.Lib.IdealHost

/-!
# The reference computes the layer

The reference gathers the two end points' feature rows, lays them and the message end to end into one row of 1024
numbers per edge, contracts that row with the weight matrix and applies the activation. Read at entry `(r, q)`:
the contraction is a sum over 1024 positions, which `Spec.sum_split` cuts at 256 and 512; on each stretch the
joined row is one of the three pieces (the three readings of a concatenation along the columns), so the three sums are
`Spec.lin`'s three contractions; and the host's `1 / (1 + exp (-x))` is the logistic function by definition.
The two gathered arrays are kept as they are: nothing here looks inside a gather.
-/

noncomputable section

namespace Cert.ReferenceIdeal.RefValue

open Cert.ReferenceIdeal Cert.ReferenceIdeal.Gen Cert.ReferenceIdeal.Read Idealize.ShloMosaic Idealize.ShloMosaic.ValueIdx

/-- The left operand of the contraction at entry `(r, q)` and position `k` is the joined row's entry `(r, k)`. -/
theorem lidx_eq (r : Fin 200000) (q : Fin 512) (k : Fin 1024) : lidx_main_v15 (ix2 r q) k = ix2 r k := by
  funext a; match a with | ⟨0, _⟩ => rfl | ⟨1, _⟩ => rfl

/-- The right operand is the weight matrix's entry `(k, q)`. -/
theorem ridx_eq (r : Fin 200000) (q : Fin 512) (k : Fin 1024) : ridx_main_v15 (ix2 r q) k = ix2 k q := by
  funext a; match a with | ⟨0, _⟩ => rfl | ⟨1, _⟩ => rfl

/-- On the first 256 positions the joined row is the first end point's gathered row. -/
theorem joined_left (x0 : FVec Ideal S50000x256 .f32) (x1 : FVec Ideal S200000x512 .f32) (x2 x3 : IVec S200000 32)
    (r : Fin 200000) (k : Fin 256) :
    val_main_v14 (F := Ideal) x0 x1 x2 x3 (ix2 r (⟨k.val, by have := k.isLt; omega⟩ : Fin 1024))
      = val_main_v6 (F := Ideal) x0 x2 (ix2 r k) :=
  Cert.LibConcatCols.concat3_left (by norm_num : 256 + 256 + 512 = 1024) _ _ _ _ r k

/-- On the next 256 positions it is the second end point's gathered row. -/
theorem joined_mid (x0 : FVec Ideal S50000x256 .f32) (x1 : FVec Ideal S200000x512 .f32) (x2 x3 : IVec S200000 32)
    (r : Fin 200000) (k : Fin 256) :
    val_main_v14 (F := Ideal) x0 x1 x2 x3 (ix2 r (⟨256 + k.val, by have := k.isLt; omega⟩ : Fin 1024))
      = val_main_v13 (F := Ideal) x0 x3 (ix2 r k) :=
  Cert.LibConcatCols.concat3_mid (by norm_num : 256 + 256 + 512 = 1024) _ _ _ _ r k

/-- On the last 512 positions it is the edge's message. -/
theorem joined_right (x0 : FVec Ideal S50000x256 .f32) (x1 : FVec Ideal S200000x512 .f32) (x2 x3 : IVec S200000 32)
    (r : Fin 200000) (k : Fin 512) :
    val_main_v14 (F := Ideal) x0 x1 x2 x3 (ix2 r (⟨512 + k.val, by have := k.isLt; omega⟩ : Fin 1024))
      = x1 (ix2 r k) :=
  Cert.LibConcatCols.concat3_right (by norm_num : 256 + 256 + 512 = 1024) _ _ _ _ r k

/-- Entry `(r, q)` of the reference's product is `Spec.lin` of the two gathered arrays, the messages and the weights. -/
theorem product_eq (x0 : FVec Ideal S50000x256 .f32) (x1 : FVec Ideal S200000x512 .f32) (x2 x3 : IVec S200000 32)
    (x4 : FVec Ideal S1024x512 .f32) (r : Fin 200000) (q : Fin 512) :
    val_main_v15 (F := Ideal) x0 x1 x2 x3 x4 (ix2 r q)
      = Cert.Spec.lin (val_main_v6 (F := Ideal) x0 x2) (val_main_v13 (F := Ideal) x0 x3) x1 x4 r q := by
  rw [val_main_v15_apply]
  refine (Cert.Spec.sum_split (fun k => val_main_v14 (F := Ideal) x0 x1 x2 x3 (lidx_main_v15 (ix2 r q) k)
    * x4 (ridx_main_v15 (ix2 r q) k))).trans ?_
  unfold Cert.Spec.lin
  refine congrArg₂ (· + ·) (congrArg₂ (· + ·) ?_ ?_) ?_
  · exact Finset.sum_congr rfl fun k _ => by rw [lidx_eq, ridx_eq, joined_left]
  · exact Finset.sum_congr rfl fun k _ => by rw [lidx_eq, ridx_eq, joined_mid]
  · exact Finset.sum_congr rfl fun k _ => by rw [lidx_eq, ridx_eq, joined_right]

/-- The reference's result is `Spec.out` of the two gathered arrays, the messages and the weights. -/
theorem result_eq (x0 : FVec Ideal S50000x256 .f32) (x1 : FVec Ideal S200000x512 .f32) (x2 x3 : IVec S200000 32)
    (x4 : FVec Ideal S1024x512 .f32) :
    val_main_v16 (F := Ideal) x0 x1 x2 x3 x4
      = Cert.Spec.out (val_main_v6 (F := Ideal) x0 x2) (val_main_v13 (F := Ideal) x0 x3) x1 x4 := by
  funext i
  obtain ⟨r, q, rfl⟩ : ∃ (r : Fin 200000) (q : Fin 512), i = ix2 r q := ⟨i 0, i 1, eq_ix2 i⟩
  rw [val_main_v16_apply, val_main_call0_v5_apply, val_main_call0_v4_apply, val_main_call0_cst_0_apply,
    val_main_call0_v3_apply, val_main_call0_v2_apply, val_main_call0_cst_apply, val_main_call0_v1_apply,
    val_main_call0_v0_apply, product_eq]
  show _ = Cert.Spec.act (Cert.Spec.lin _ _ _ _ r q)
  simp only [Cert.Spec.act, Ideal.logistic, Ideal.mulf_def, Ideal.hostDivf_def, Ideal.addf_def, Ideal.hostUnary_exp_def,
    Ideal.hostNegf_def, Ideal.negf_def, Ideal.ofBits_def, Ideal.ofBits_one_f32]

end Cert.ReferenceIdeal.RefValue

end
-- ==== Proof.KernelPayload.lean ====
import proofs.«405418_j3985729650842_1_alg».proof.Proof.Gen.KernelIdeal.Skeleton
import proofs.«405418_j3985729650842_1_alg».proof.Proof.Spec
import Idealize.ShloMosaic.Lib.ValueIdx
import Idealize.ShloMosaic.Lib.Pipeline.Value
import Idealize.ShloMosaic.PureOps.Ideal.Laws

/-!
# What the kernel body computes on one block of edges

On a block of 2000 edges the body multiplies the block of first end points' features by its 256 × 512 weight block,
the block of second end points' features by its own, the block of messages by a 512 × 512 weight block, adds the three
products and applies `x ↦ x · logistic x`. Each product, into a zero accumulator, is at entry `(p, q)` the plain sum
over the contracted position `k` of left `(p, k)` times right `(k, q)`; the narrowing to the 16-bit format before each
product changes nothing over the extended reals, and a cast of a block to its own shape is the block.
-/

noncomputable section

namespace Cert.KernelIdeal.Payload

open Cert.KernelIdeal Cert.KernelIdeal.Gen Idealize.ShloMosaic Idealize.ShloMosaic.ValueIdx

/-! ## The operand positions of the two kinds of product, coordinate by coordinate -/

theorem lhsA_0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
theorem lhsA_1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
theorem rhsA_0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
theorem rhsA_1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

theorem lhsB_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhsB_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhsB_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhsB_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-! ## A product into a zero accumulator, at an entry -/

/-- A 2000 × 256 block times a 256 × 512 block, at entry `(p, q)`: the sum over the 256 contracted positions. -/
theorem matmulA_apply (l : FVec Ideal S2000x256 .bf16) (w : FVec Ideal S256x512 .bf16) (p : Fin 2000) (q : Fin 512) :
    matmul dot_S2000x256_S256x512_S2000x512_1_0_0_1_n_n none l w (constant (F := Ideal) S2000x512 .f32 0x00000000#32) (ix2 p q)
      = ∑ k : Fin 256, l (ix2 p k) * w (ix2 k q) := by
  show FloatOps.matmul dot_S2000x256_S256x512_S2000x512_1_0_0_1_n_n none l w (constant (F := Ideal) S2000x512 .f32 0x00000000#32) (ix2 p q) = _
  rw [Ideal.matmul_constant_zero_apply, ← Equiv.sum_comp (contrEquiv1 dot_S2000x256_S256x512_S2000x512_1_0_0_1_n_n 256 rfl rfl).symm]
  refine Finset.sum_congr rfl fun k _ => ?_
  have hk := contrEquiv1_symm_val dot_S2000x256_S256x512_S2000x512_1_0_0_1_n_n 256 rfl rfl k
  have el : dot_S2000x256_S256x512_S2000x512_1_0_0_1_n_n.lhsIdx (ix2 p q) ((contrEquiv1 dot_S2000x256_S256x512_S2000x512_1_0_0_1_n_n 256 rfl rfl).symm k) = ix2 p k := funext fun a => Fin.ext (by
    match a with
    | ⟨0, _⟩ => exact lhsA_0 _ _
    | ⟨1, _⟩ => exact (lhsA_1 _ _).trans hk)
  have er : dot_S2000x256_S256x512_S2000x512_1_0_0_1_n_n.rhsIdx (ix2 p q) ((contrEquiv1 dot_S2000x256_S256x512_S2000x512_1_0_0_1_n_n 256 rfl rfl).symm k) = ix2 k q := funext fun a => Fin.ext (by
    match a with
    | ⟨0, _⟩ => exact (rhsA_0 _ _).trans hk
    | ⟨1, _⟩ => exact rhsA_1 _ _)
  rw [el, er]

/-- A 2000 × 512 block times a 512 × 512 block, at entry `(p, q)`: the sum over the 512 contracted positions. -/
theorem matmulB_apply (l : FVec Ideal S2000x512 .bf16) (w : FVec Ideal S512x512 .bf16) (p : Fin 2000) (q : Fin 512) :
    matmul dot_S2000x512_S512x512_S2000x512_1_0_0_1_n_n none l w (constant (F := Ideal) S2000x512 .f32 0x00000000#32) (ix2 p q)
      = ∑ k : Fin 512, l (ix2 p k) * w (ix2 k q) := by
  show FloatOps.matmul dot_S2000x512_S512x512_S2000x512_1_0_0_1_n_n none l w (constant (F := Ideal) S2000x512 .f32 0x00000000#32) (ix2 p q) = _
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun a => Fin.ext (by
    match a with
    | ⟨0, _⟩ => exact lhsB_0 _ _
    | ⟨1, _⟩ => exact (lhsB_1 _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun a => Fin.ext (by
    match a with
    | ⟨0, _⟩ => exact (rhsB_0 _ _).trans hk
    | ⟨1, _⟩ => exact rhsB_1 _ _)
  rw [el, er]

/-! ## The stored value at an entry -/

/-- The logistic function applied to a block is applied entry by entry. -/
theorem logistic_apply {s : Shape} {φ : FTy} (a : FVec Ideal s φ) (i : s.Idx) : logistic a i = Ideal.logistic (a i) := rfl

/-- Entry `(p, q)` of the block the body stores: the activation of the three contractions added up. -/
theorem pay_apply (v0 v3 : Vec Ideal S2000x256 .f32) (v6 : Vec Ideal S2000x512 .f32) (v8 v10 : Vec Ideal S256x512 .bf16)
    (v12 : Vec Ideal S512x512 .bf16) (p : Fin 2000) (q : Fin 512) :
    k0_pay1 (F := Ideal) v0 v3 v6 v8 v10 v12 (ix2 p q)
      = Cert.Spec.act ((∑ k : Fin 256, v0 (ix2 p k) * v8 (ix2 k q) + ∑ k : Fin 256, v3 (ix2 p k) * v10 (ix2 k q))
          + ∑ k : Fin 512, v6 (ix2 p k) * v12 (ix2 k q)) := by
  unfold k0_pay1
  simp only [shapeCast_self]
  rw [mulf_apply, logistic_apply, addf_apply, addf_apply, matmulA_apply, matmulA_apply, matmulB_apply]
  rfl

end Cert.KernelIdeal.Payload

end
-- ==== Proof.BlockValue.lean ====
import proofs.«405418_j3985729650842_1_alg».proof.Proof.Gen.KernelIdeal.Value
import proofs.«405418_j3985729650842_1_alg».proof.Proof.KernelPayload
import proofs.«405418_j3985729650842_1_alg».proof.Proof.Spec

/-!
# From the blocks to the whole array

The region walks the 200000 edges in 100 blocks of 2000. At block `t` it stages rows `2000 t … 2000 t + 1999` of the
two arrays of taken rows and of the messages, all of each of the three weight blocks, and writes back rows
`2000 t … 2000 t + 1999` of the result. So what point `t` writes is block `t` of ONE function `G` of the six staged
arrays — entry `(r, q)` is the activation of the three contractions of row `r` against column `q` —, and since the 100
blocks tile the result, the result array after the run is `G`.
-/

set_option maxRecDepth 16384

noncomputable section

namespace Cert.KernelIdeal.BlockValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The result as one function of the six staged arrays: entry `(r, q)` is the activation of row `r` of the two arrays of
    taken rows and of the messages, contracted with column `q` of the three weight blocks. -/
def G (a0 a1 : S200000x256.Idx → EReal) (a2 : S200000x512.Idx → EReal) (w0 w1 : S256x512.Idx → EReal)
    (w2 : S512x512.Idx → EReal) : S200000x512.Idx → EReal :=
  fun i => Cert.Spec.act ((∑ k : Fin 256, a0 (ix2 (i 0) k) * w0 (ix2 k (i 1)) + ∑ k : Fin 256, a1 (ix2 (i 0) k) * w1 (ix2 k (i 1)))
    + ∑ k : Fin 512, a2 (ix2 (i 0) k) * w2 (ix2 k (i 1)))

/-- The printed index maps over the 100 points: the three row-blocked inputs move with the output's row block and sit at
    column block 0; the weight blocks do not move; the output sits at column block 0. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 :=
  (by decide +kernel : ∀ t : Fin grid0.N, _)

/-- Every row block of the result is some point's. -/
theorem idx_onto : ∀ q0 : Fin 100, ∃ t : Fin cfg0.N, win0_6.index t = ![q0.val, 0] :=
  (by decide +kernel : ∀ q0 : Fin 100, ∃ t : Fin grid0.N, win0_6.index t = ![q0.val, 0])

/-! ## The staged blocks, read where the result's block says -/

/-- Row `p` of point `t`'s block of the first array of taken rows is row `r` of the array, `r` the result block's row. -/
theorem read0 (c : Dev nD) (t : Fin cfg0.N) (p : Fin 2000) (k : Fin 256) (r : Fin 200000)
    (hr : r.val = win0_6.index t (0 : Fin 2) * 2000 + 1 * p.val) :
    iblk m c 0 t (ix2 p k) = V m c main_v0 (ix2 r k) := by
  obtain ⟨e00, e01, -⟩ := idx_facts t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 2000 + 1 * p.val = r.val; omega
  | ⟨1, _⟩ => show win0_0.index t (1 : Fin 2) * 256 + 1 * k.val = k.val; omega

/-- The same for the second array of taken rows. -/
theorem read1 (c : Dev nD) (t : Fin cfg0.N) (p : Fin 2000) (k : Fin 256) (r : Fin 200000)
    (hr : r.val = win0_6.index t (0 : Fin 2) * 2000 + 1 * p.val) :
    iblk m c 1 t (ix2 p k) = V m c main_v1 (ix2 r k) := by
  obtain ⟨-, -, e10, e11, -⟩ := idx_facts t
  show V m c main_v1 (((cfg0.win 1).blk t).view.emb (ix2 p k)) = V m c main_v1 (ix2 r k)
  refine congrArg (V m c main_v1) (funext fun a => Fin.ext ?_)
  match a with
  | ⟨0, _⟩ => show win0_1.index t (0 : Fin 2) * 2000 + 1 * p.val = r.val; omega
  | ⟨1, _⟩ => show win0_1.index t (1 : Fin 2) * 256 + 1 * k.val = k.val; omega

/-- The same for the messages. -/
theorem read2 (c : Dev nD) (t : Fin cfg0.N) (p : Fin 2000) (k : Fin 512) (r : Fin 200000)
    (hr : r.val = win0_6.index t (0 : Fin 2) * 2000 + 1 * p.val) :
    iblk m c 2 t (ix2 p k) = V m c main_arg1 (ix2 r k) := by
  obtain ⟨-, -, -, -, e20, e21, -⟩ := idx_facts t
  show V m c main_arg1 (((cfg0.win 2).blk t).view.emb (ix2 p k)) = V m c main_arg1 (ix2 r k)
  refine congrArg (V m c main_arg1) (funext fun a => Fin.ext ?_)
  match a with
  | ⟨0, _⟩ => show win0_2.index t (0 : Fin 2) * 2000 + 1 * p.val = r.val; omega
  | ⟨1, _⟩ => show win0_2.index t (1 : Fin 2) * 512 + 1 * k.val = k.val; omega

/-- Every point stages the whole first weight block; its column `q` is column `s` of the array, `s` the result block's column. -/
theorem read3 (c : Dev nD) (t : Fin cfg0.N) (k : Fin 256) (q s : Fin 512)
    (hs : s.val = win0_6.index t (1 : Fin 2) * 512 + 1 * q.val) :
    iblk m c 3 t (ix2 k q) = V m c main_v3 (ix2 k s) := by
  obtain ⟨-, -, -, -, -, -, e30, e31, -, -, -, -, e61⟩ := idx_facts t
  show V m c main_v3 (((cfg0.win 3).blk t).view.emb (ix2 k q)) = V m c main_v3 (ix2 k s)
  refine congrArg (V m c main_v3) (funext fun a => Fin.ext ?_)
  match a with
  | ⟨0, _⟩ => show win0_3.index t (0 : Fin 2) * 256 + 1 * k.val = k.val; omega
  | ⟨1, _⟩ => show win0_3.index t (1 : Fin 2) * 512 + 1 * q.val = s.val; omega

/-- The same for the second weight block. -/
theorem read4 (c : Dev nD) (t : Fin cfg0.N) (k : Fin 256) (q s : Fin 512)
    (hs : s.val = win0_6.index t (1 : Fin 2) * 512 + 1 * q.val) :
    iblk m c 4 t (ix2 k q) = V m c main_v5 (ix2 k s) := by
  obtain ⟨-, -, -, -, -, -, -, -, e40, e41, -, -, e61⟩ := idx_facts t
  show V m c main_v5 (((cfg0.win 4).blk t).view.emb (ix2 k q)) = V m c main_v5 (ix2 k s)
  refine congrArg (V m c main_v5) (funext fun a => Fin.ext ?_)
  match a with
  | ⟨0, _⟩ => show win0_4.index t (0 : Fin 2) * 256 + 1 * k.val = k.val; omega
  | ⟨1, _⟩ => show win0_4.index t (1 : Fin 2) * 512 + 1 * q.val = s.val; omega

/-- The same for the third weight block. -/
theorem read5 (c : Dev nD) (t : Fin cfg0.N) (k : Fin 512) (q s : Fin 512)
    (hs : s.val = win0_6.index t (1 : Fin 2) * 512 + 1 * q.val) :
    iblk m c 5 t (ix2 k q) = V m c main_v7 (ix2 k s) := by
  obtain ⟨-, -, -, -, -, -, -, -, -, -, e50, e51, e61⟩ := idx_facts t
  show V m c main_v7 (((cfg0.win 5).blk t).view.emb (ix2 k q)) = V m c main_v7 (ix2 k s)
  refine congrArg (V m c main_v7) (funext fun a => Fin.ext ?_)
  match a with
  | ⟨0, _⟩ => show win0_5.index t (0 : Fin 2) * 512 + 1 * k.val = k.val; omega
  | ⟨1, _⟩ => show win0_5.index t (1 : Fin 2) * 512 + 1 * q.val = s.val; omega

/-! ## What a point writes back, the cover, the array -/

/-- What point `t` writes back is block `t` of `G` of the six staged arrays. -/
theorem flushed_eq (c : Dev nD) (t : Fin cfg0.N) :
    (dats m 0 c).flushed 6 t = ((cfg0.win 6).blk t).view.read (Elt Ideal)
      (G (V m c main_v0) (V m c main_v1) (V m c main_arg1) (V m c main_v3) (V m c main_v5) (V m c main_v7)) := by
  rw [Value.flushed6]
  unfold out0_6
  rw [View.canon_unit_zero hz]
  simp only [View.ld_unit_zero (S := S2000x256) hz, View.ld_unit_zero (S := S2000x512) hz,
    View.ld_unit_zero (S := S256x512) hz, View.ld_unit_zero (S := S512x512) hz]
  funext j
  obtain ⟨p, q, rfl⟩ : ∃ (p : Fin 2000) (q : Fin 512), j = ix2 p q := ⟨j 0, j 1, eq_ix2 j⟩
  show k0_pay1 (iblk m c 0 t) (iblk m c 1 t) (iblk m c 2 t) (iblk m c 3 t) (iblk m c 4 t) (iblk m c 5 t) (ix2 p q)
    = G (V m c main_v0) (V m c main_v1) (V m c main_arg1) (V m c main_v3) (V m c main_v5) (V m c main_v7)
        (((cfg0.win 6).blk t).view.emb (ix2 p q))
  refine (Payload.pay_apply (iblk m c 0 t) (iblk m c 1 t) (iblk m c 2 t) (iblk m c 3 t) (iblk m c 4 t) (iblk m c 5 t) p q).trans ?_
  unfold G
  refine congrArg Cert.Spec.act (congrArg₂ (· + ·) (congrArg₂ (· + ·) ?_ ?_) ?_)
  · exact Finset.sum_congr rfl fun k _ => by
      rw [read0 m c t p k ((((cfg0.win 6).blk t).view.emb (ix2 p q)) 0) rfl,
        read3 m c t k q ((((cfg0.win 6).blk t).view.emb (ix2 p q)) 1) rfl]
  · exact Finset.sum_congr rfl fun k _ => by
      rw [read1 m c t p k ((((cfg0.win 6).blk t).view.emb (ix2 p q)) 0) rfl,
        read4 m c t k q ((((cfg0.win 6).blk t).view.emb (ix2 p q)) 1) rfl]
  · exact Finset.sum_congr rfl fun k _ => by
      rw [read2 m c t p k ((((cfg0.win 6).blk t).view.emb (ix2 p q)) 0) rfl,
        read5 m c t k q ((((cfg0.win 6).blk t).view.emb (ix2 p q)) 1) rfl]

/-- An index of the result is in point `t`'s block iff each coordinate is in the block's range on its axis. -/
theorem mem_blk (t : Fin cfg0.N) (i : S200000x512.Idx) :
    i ∈ ((cfg0.win 6).blk t).view.set ↔ ∀ a : Fin 2, win0_6.index t a * S2000x512.size a ≤ (i a).val
      ∧ (i a).val < win0_6.index t a * S2000x512.size a + S2000x512.size a := by
  show i ∈ ((View.whole main_v8).slice (win0_6.rect t)).set ↔ _
  rw [View.set_slice_whole, Rect.mem_set_unit]
  exact Iff.rfl

/-- The blocks tile the result: row `r` is in the block of the point whose row block is `r / 2000`. -/
theorem cover (i : S200000x512.Idx) :
    ∃ t : Fin cfg0.N, (cfg0.win 6).flush t = true ∧ i ∈ ((cfg0.win 6).blk t).view.set := by
  have hi0 : (i 0).val < 200000 := (i 0).isLt
  have hi1 : (i 1).val < 512 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 512 ≤ (i 1).val ∧ (i 1).val < win0_6.index t (1 : Fin 2) * 512 + 512
    omega

/-- The result array after the run is `G` of the six staged arrays. -/
theorem final (c : Dev nD) :
    (dats m 0 c).arrAt 6 cfg0.N
      = G (V m c main_v0) (V m c main_v1) (V m c main_arg1) (V m c main_v3) (V m c main_v5) (V m c main_v7) :=
  (dats m 0 c).arrAt_eq_of_cover 6 _ (fun t _ => flushed_eq m c t) cover

end Cert.KernelIdeal.BlockValue

end
-- ==== Proof.TakeRows.lean ====
import proofs.«405418_j3985729650842_1_alg».proof.Proof.Gen.KernelIdeal
import proofs.«405418_j3985729650842_1_alg».proof.Proof.IndexDomain
import Idealize.ShloMosaic.Lib.Pipeline.Value
import Idealize.ShloMosaic.PureOps.Reduce
import Idealize.ShloMosaic.Lib.ValueIdx

/-!
# Taking rows of the node table

The kernel's program takes a row of the 50000-row node table for each of the 200000 edges in three steps: an index with
a negative value is moved up by 50000 (`wrapCol`); the row at that start position is gathered; and where the start
position is not a row of the table — below 0 or above 49999 — the gathered row is replaced by a row of one fixed filler
value (`inTable`, `takeRows`). When every index has a value in `[-50000, 50000)` every start position is a row of the
table, the test answers 1 at every edge, and the rows taken are the gathered rows (`takeRows_eq`).
-/

noncomputable section

namespace Cert.KernelIdeal.TakeRows

open Cert.KernelIdeal Cert.KernelIdeal.Gen Idealize.ShloMosaic

variable {F : FTy → Type} [FloatOps F]

/-- The column of start rows: each index with a negative value moved up by the table's 50000 rows. -/
def wrapCol (x : IVec S200000 32) : IVec S200000x1 32 :=
  broadcastInDim S200000x1 ![0] bcast_S200000_S200000x1_0
    (select (cmpi .slt x (broadcastInDim S200000 ![] bcast_S_S200000 (constantI S_ 32 0#32)))
      (addi x (broadcastInDim S200000 ![] bcast_S_S200000 (constantI S_ 32 50000#32))) x)

/-- At each position of the column, the two comparisons of the start row: at least 0, and at most 49999. -/
def inBounds (x : IVec S200000 32) : IVec S200000x1 1 :=
  andi (cmpi .sge (wrapCol x) (broadcastInDim S200000x1 ![] bcast_S_S200000x1 (constantI S_ 32 0#32)))
    (cmpi .sle (wrapCol x) (broadcastInDim S200000x1 ![0, 1] bcast_S1x1_S200000x1_0_1
      (broadcastInDim S1x1 ![1] bcast_S1_S1x1_1 (constantI S1 32 49999#32))))

/-- For each edge, whether its start row lies in the table: the conjunction of the comparisons along the column's one
    position. -/
def inTable (x : IVec S200000 32) : IVec S200000 1 :=
  Host.reduce IntOp.andi (inBounds x) (constantI S_ 1 1#1) reducesTo_S200000x1_S200000_d1 h_S_

/-- The rows taken from the table `h`: the gathered row where the start row lies in the table, and a row of one fixed
    filler value where it does not. -/
def takeRows (h : FVec F S50000x256 .f32) (x : IVec S200000 32) : FVec F S200000x256 .f32 :=
  select (broadcastInDim S200000x256 ![0] bcast_S200000_S200000x256_0 (inTable x))
    (Host.gather gather_S50000x256_S200000x1_S200000x256_1_0_n_n_0_1_1256 h (wrapCol x))
    (broadcastInDim S200000x256 ![] bcast_S_S200000x256 (constant S_ .f32 0x7FC00000#32))

/-- The edge a position of the column belongs to. -/
abbrev edgeOf (i : S200000x1.Idx) : S200000.Idx := fun a => match a with
  | ⟨0, _⟩ => ⟨(i 0).val, (i 0).isLt⟩

/-- The start row at a position of the column is the wrap of that edge's index. -/
theorem wrapCol_apply (x : IVec S200000 32) (i : S200000x1.Idx) :
    wrapCol x i = Scalar.select (IntOp.cmpi .slt (x (edgeOf i)) 0#32) (IntOp.addi (x (edgeOf i)) 50000#32) (x (edgeOf i)) := by
  unfold wrapCol
  rw [broadcastInDim_apply _ bcast_S200000_S200000x1_0 _ i (edgeOf i) (fun a => match a with
    | ⟨0, _⟩ => by show (i 0).val = if (200000 : Nat) = 1 then 0 else (i 0).val; rw [if_neg (by decide)])]
  rfl

/-- On the index domain both comparisons answer 1 at every position of the column. -/
theorem inBounds_one (x : IVec S200000 32) (hx : ∀ e, -50000 ≤ (x e).toInt ∧ (x e).toInt < 50000) (i : S200000x1.Idx) :
    inBounds x i = 1#1 := by
  show IntOp.andi (IntOp.cmpi .sge (wrapCol x i) 0#32) (IntOp.cmpi .sle (wrapCol x i) 49999#32) = 1#1
  rw [wrapCol_apply]
  exact Cert.IndexDomain.wrap_mask_one (x (edgeOf i)) (hx (edgeOf i)).1 (hx (edgeOf i)).2

/-- A conjunction, taken from 1 over any list of positions that all hold 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- On the index domain every edge's start row lies in the table. -/
theorem inTable_one (x : IVec S200000 32) (hx : ∀ e, -50000 ≤ (x e).toInt ∧ (x e).toInt < 50000) (e : S200000.Idx) :
    inTable x e = 1#1 := by
  unfold inTable
  rw [Host.reduce_eq_foldl]
  exact foldl_andi_one (inBounds x) _ fun n _ => inBounds_one x hx n

/-- On the index domain the rows taken are the gathered rows: the filler is never used. -/
theorem takeRows_eq (h : FVec F S50000x256 .f32) (x : IVec S200000 32)
    (hx : ∀ e, -50000 ≤ (x e).toInt ∧ (x e).toInt < 50000) :
    takeRows h x = Host.gather gather_S50000x256_S200000x1_S200000x256_1_0_n_n_0_1_1256 h (wrapCol x) := by
  funext i
  have hm : broadcastInDim S200000x256 ![0] bcast_S200000_S200000x256_0 (inTable x) i = 1#1 := by
    unfold broadcastInDim
    exact inTable_one x hx _
  unfold takeRows
  rw [ValueIdx.select_apply, hm, ValueIdx.select_one]

end Cert.KernelIdeal.TakeRows

end
-- ==== Proof.KernelHost.lean ====
import proofs.«405418_j3985729650842_1_alg».proof.Proof.Gen.KernelIdeal.Frame
import proofs.«405418_j3985729650842_1_alg».proof.Proof.TakeRows
import Idealize.ShloMosaic.Lib.StableHlo.Run

/-!
# The arrays the kernel's region finds

Before its one region the kernel's program takes the rows of the node table for the first and for the second end point
of every edge, and cuts the weight matrix into its rows 0 … 255, 256 … 511 and 512 … 1023, each narrowed to the 16-bit
format. These are the five computed arrays the region's windows stage, each as a function of the argument arrays; the
sixth, the edges' messages, is an argument itself.
-/

noncomputable section

namespace Cert.KernelIdeal.HostValue

open Cert.KernelIdeal Cert.KernelIdeal.Gen Cert.KernelIdeal.TakeRows Idealize.ShloMosaic Idealize.ShloMosaic.TcCoe Idealize.SL.Sem
  Idealize.ShloMosaic.StableHlo

variable {F : FTy → Type} [FloatOps F]
variable (m : (ℓ : Loc nD τ sig) → Buf (Elt F) ℓ)

/-- The region finds each buffer as the three stretches of host operations leave it, one after the other. -/
theorem V_eq (c : Dev nD) (b : Ref sig .tc) :
    V m c b = StableHlo.after hostOps0_2 (StableHlo.after hostOps0_1 (StableHlo.after hostOps0 (fun b => m (c, b))))
      (Proc.devRef .tc b) := by
  show StableHlo.after (List.flatten [hostOps0, hostOps0_1, hostOps0_2]) (fun b => m (c, b)) (Proc.devRef .tc b) = _
  rw [List.flatten_cons, List.flatten_cons, List.flatten_cons, List.flatten_nil, List.append_nil, StableHlo.after_append,
    StableHlo.after_append]

set_option maxHeartbeats 2000000 in
/-- The first window's array: the rows of the node table taken by the first index array. -/
theorem V_main_v0 (c : Dev nD) :
    (V m c main_v0 : S200000x256.Idx → Elt F .f32)
      = takeRows (m ((c : Thread nD τ).loc main_arg0)) (m ((c : Thread nD τ).loc main_arg2)) := by
  rw [V_eq]
  simp only [hostOps0_2, hostOps0_1, hostOps0]
  after_results
  simp only [cast_cast, cast_eq]
  unfold takeRows inTable inBounds wrapCol
  rfl

set_option maxHeartbeats 2000000 in
/-- The second window's array: the rows taken by the second index array. -/
theorem V_main_v1 (c : Dev nD) :
    (V m c main_v1 : S200000x256.Idx → Elt F .f32)
      = takeRows (m ((c : Thread nD τ).loc main_arg0)) (m ((c : Thread nD τ).loc main_arg3)) := by
  rw [V_eq]
  simp only [hostOps0_2, hostOps0_1, hostOps0]
  after_results
  simp only [cast_cast, cast_eq]
  unfold takeRows inTable inBounds wrapCol
  rfl

set_option maxHeartbeats 2000000 in
/-- The fourth window's array: rows 0 … 255 of the weight matrix, narrowed. -/
theorem V_main_v3 (c : Dev nD) :
    (V m c main_v3 : S256x512.Idx → Elt F .bf16)
      = truncf .bf16 (extractStridedSlice S256x512 ![0, 0] (m ((c : Thread nD τ).loc main_arg4)) slices_S1024x512_S256x512_0_0)
          bitsLt_bf16_f32 := by
  rw [V_eq]
  simp only [hostOps0_2, hostOps0_1, hostOps0]
  after_results

set_option maxHeartbeats 2000000 in
/-- The fifth window's array: rows 256 … 511 of the weight matrix, narrowed. -/
theorem V_main_v5 (c : Dev nD) :
    (V m c main_v5 : S256x512.Idx → Elt F .bf16)
      = truncf .bf16 (extractStridedSlice S256x512 ![256, 0] (m ((c : Thread nD τ).loc main_arg4)) slices_S1024x512_S256x512_256_0)
          bitsLt_bf16_f32 := by
  rw [V_eq]
  simp only [hostOps0_2, hostOps0_1, hostOps0]
  after_results

set_option maxHeartbeats 2000000 in
/-- The sixth window's array: rows 512 … 1023 of the weight matrix, narrowed. -/
theorem V_main_v7 (c : Dev nD) :
    (V m c main_v7 : S512x512.Idx → Elt F .bf16)
      = truncf .bf16 (extractStridedSlice S512x512 ![512, 0] (m ((c : Thread nD τ).loc main_arg4)) slices_S1024x512_S512x512_512_0)
          bitsLt_bf16_f32 := by
  rw [V_eq]
  simp only [hostOps0_2, hostOps0_1, hostOps0]
  after_results

end Cert.KernelIdeal.HostValue

end
-- ==== Proof.KernelResult.lean ====
import proofs.«405418_j3985729650842_1_alg».proof.Proof.BlockValue
import proofs.«405418_j3985729650842_1_alg».proof.Proof.KernelHost

/-!
# The kernel computes the layer

The result array is `BlockValue.G` of the six staged arrays. The three weight blocks are rows 0 … 255, 256 … 511 and
512 … 1023 of the weight matrix (the narrowing is the identity over the extended reals), so `G`'s three contractions
are `Spec.lin`'s; and on the index domain the two arrays of taken rows are the gathered rows. So the kernel's result is
`Spec.out` of the two gathered arrays, the messages and the weight matrix.
-/

noncomputable section

namespace Cert.KernelIdeal.Result

open Cert.KernelIdeal Cert.KernelIdeal.Gen Cert.KernelIdeal.TakeRows Idealize.ShloMosaic Idealize.ShloMosaic.TcCoe Idealize.SL.Sem
  Idealize.ShloMosaic.ValueIdx

/-- Entry `(k, q)` of the first weight block is entry `(k, q)` of the weight matrix. -/
theorem w0_apply (W : FVec Ideal S1024x512 .f32) (k : Fin 256) (q : Fin 512) :
    (truncf .bf16 (extractStridedSlice S256x512 ![0, 0] W slices_S1024x512_S256x512_0_0) bitsLt_bf16_f32 : FVec Ideal S256x512 .bf16) (ix2 k q)
      = W (ix2 (⟨k.val, by have := k.isLt; omega⟩ : Fin 1024) q) := by
  rw [truncf_apply]
  exact extractStridedSlice_apply _ W _ (ix2 k q) (ix2 (⟨k.val, by have := k.isLt; omega⟩ : Fin 1024) q) (fun a => match a with
    | ⟨0, _⟩ => by show k.val = 0 + k.val; omega
    | ⟨1, _⟩ => by show q.val = 0 + q.val; omega)

/-- Entry `(k, q)` of the second weight block is entry `(256 + k, q)` of the weight matrix. -/
theorem w1_apply (W : FVec Ideal S1024x512 .f32) (k : Fin 256) (q : Fin 512) :
    (truncf .bf16 (extractStridedSlice S256x512 ![256, 0] W slices_S1024x512_S256x512_256_0) bitsLt_bf16_f32 : FVec Ideal S256x512 .bf16) (ix2 k q)
      = W (ix2 (⟨256 + k.val, by have := k.isLt; omega⟩ : Fin 1024) q) := by
  rw [truncf_apply]
  exact extractStridedSlice_apply _ W _ (ix2 k q) (ix2 (⟨256 + k.val, by have := k.isLt; omega⟩ : Fin 1024) q) (fun a => match a with
    | ⟨0, _⟩ => by show 256 + k.val = 256 + k.val; rfl
    | ⟨1, _⟩ => by show q.val = 0 + q.val; omega)

/-- Entry `(k, q)` of the third weight block is entry `(512 + k, q)` of the weight matrix. -/
theorem w2_apply (W : FVec Ideal S1024x512 .f32) (k : Fin 512) (q : Fin 512) :
    (truncf .bf16 (extractStridedSlice S512x512 ![512, 0] W slices_S1024x512_S512x512_512_0) bitsLt_bf16_f32 : FVec Ideal S512x512 .bf16) (ix2 k q)
      = W (ix2 (⟨512 + k.val, by have := k.isLt; omega⟩ : Fin 1024) q) := by
  rw [truncf_apply]
  exact extractStridedSlice_apply _ W _ (ix2 k q) (ix2 (⟨512 + k.val, by have := k.isLt; omega⟩ : Fin 1024) q) (fun a => match a with
    | ⟨0, _⟩ => by show 512 + k.val = 512 + k.val; rfl
    | ⟨1, _⟩ => by show q.val = 0 + q.val; omega)

/-- With the three weight blocks cut from one weight matrix, `G` is the layer. -/
theorem G_eq_out (gi gj : S200000x256.Idx → EReal) (mij : S200000x512.Idx → EReal) (W : FVec Ideal S1024x512 .f32) :
    BlockValue.G gi gj mij
        (truncf .bf16 (extractStridedSlice S256x512 ![0, 0] W slices_S1024x512_S256x512_0_0) bitsLt_bf16_f32)
        (truncf .bf16 (extractStridedSlice S256x512 ![256, 0] W slices_S1024x512_S256x512_256_0) bitsLt_bf16_f32)
        (truncf .bf16 (extractStridedSlice S512x512 ![512, 0] W slices_S1024x512_S512x512_512_0) bitsLt_bf16_f32)
      = Cert.Spec.out gi gj mij W := by
  funext i
  unfold BlockValue.G Cert.Spec.out Cert.Spec.lin
  refine congrArg Cert.Spec.act (congrArg₂ (· + ·) (congrArg₂ (· + ·) ?_ ?_) ?_)
  · exact Finset.sum_congr rfl fun k _ => congrArg (_ * ·) (w0_apply W k (i 1))
  · exact Finset.sum_congr rfl fun k _ => congrArg (_ * ·) (w1_apply W k (i 1))
  · exact Finset.sum_congr rfl fun k _ => congrArg (_ * ·) (w2_apply W k (i 1))

variable (m : (ℓ : Loc nD τ sig) → Buf (Elt Ideal) ℓ)

/-- On the index domain the kernel's result array is the layer of the two gathered arrays, the messages and the weight
    matrix. -/
theorem result (c : Dev nD)
    (h2 : ∀ e, -50000 ≤ (m ((c : Thread nD τ).loc main_arg2) e).toInt ∧ (m ((c : Thread nD τ).loc main_arg2) e).toInt < 50000)
    (h3 : ∀ e, -50000 ≤ (m ((c : Thread nD τ).loc main_arg3) e).toInt ∧ (m ((c : Thread nD τ).loc main_arg3) e).toInt < 50000) :
    (dats m 0 c).arrAt 6 cfg0.N
      = Cert.Spec.out
          (Host.gather gather_S50000x256_S200000x1_S200000x256_1_0_n_n_0_1_1256 (m ((c : Thread nD τ).loc main_arg0))
            (wrapCol (m ((c : Thread nD τ).loc main_arg2))))
          (Host.gather gather_S50000x256_S200000x1_S200000x256_1_0_n_n_0_1_1256 (m ((c : Thread nD τ).loc main_arg0))
            (wrapCol (m ((c : Thread nD τ).loc main_arg3))))
          (m ((c : Thread nD τ).loc main_arg1)) (m ((c : Thread nD τ).loc main_arg4)) := by
  rw [BlockValue.final, HostValue.V_main_v0, HostValue.V_main_v1, V_main_arg1, HostValue.V_main_v3, HostValue.V_main_v5,
    HostValue.V_main_v7, takeRows_eq _ _ h2, takeRows_eq _ _ h3]
  exact G_eq_out _ _ _ _

end Cert.KernelIdeal.Result

end
-- ==== Proof.lean ====
/-
  One layer of a message-passing network over a graph of 50000 nodes and 200000 edges. For every edge the features of
  its two end points (256 numbers each) are looked up in the node table by two index arrays, joined with the edge's own
  message (512 numbers) into a row of 1024 numbers, multiplied by a 1024 × 512 weight matrix, and passed through
  `x ↦ x · logistic x`.

  The reference does exactly that. The kernel never forms the joined row: it cuts the weight matrix into its rows
  0 … 255, 256 … 511 and 512 … 1023 and adds the three smaller products, 2000 edges at a time. Over the extended reals the
  two are one function, because a sum of 1024 products is the sum of its first 256, its next 256 and its last 512
  (`Spec.sum_split`): the terms are only regrouped, so nothing is asked of the numbers, infinite ones included. The
  narrowing of the operands to a 16-bit format before each product is the identity there, and the kernel's logistic
  function is by definition the reference's `1 / (1 + exp (-x))`.

  The one place where the two programs part is the look-up. Both first move a negative index up by 50000. The
  reference then gathers the row at that position, a position outside the table being pulled to the nearest row; the
  kernel gathers the same row but replaces it by a row of a filler value when the position is outside the table. For an
  index in `[-50000, 50000)` — a valid position of a 50000-row table, counted from either end — the position is a row of
  the table and the filler is never used (`TakeRows.takeRows_eq`); outside that range the reference itself reads
  outside its table. That range is the precondition's added conjunct, and it is the only part of the precondition
  the proof uses: the finiteness of the float inputs is not needed.

  The modules: `Spec` (the layer as one function, and the split of the sum), `RefValue` (the reference's run is that
  function of the two gathered arrays), `KernelPayload` (one block of the kernel's body at an entry), `BlockValue`
  (from the 100 blocks to the whole array), `TakeRows` and `KernelHost` (the arrays the kernel's region finds),
  `KernelResult` (the kernel's array is the same function of the same two gathered arrays), `IndexDomain` (what the
  precondition says of the indices), `LibConcatCols` (a row of three arrays laid side by side, read at a column).
-/
import proofs.«405418_j3985729650842_1_alg».proof.Defs
import proofs.«405418_j3985729650842_1_alg».proof.Proof.Gen.Kernel
import proofs.«405418_j3985729650842_1_alg».proof.Proof.Gen.Kernel.Skeleton
import proofs.«405418_j3985729650842_1_alg».proof.Proof.Gen.Kernel.Launch
import proofs.«405418_j3985729650842_1_alg».proof.Proof.Gen.Kernel.Points
import proofs.«405418_j3985729650842_1_alg».proof.Proof.Gen.Kernel.Frame
import proofs.«405418_j3985729650842_1_alg».proof.Proof.Gen.KernelIdeal
import proofs.«405418_j3985729650842_1_alg».proof.Proof.Gen.KernelIdeal.Skeleton
import proofs.«405418_j3985729650842_1_alg».proof.Proof.Gen.KernelIdeal.Launch
import proofs.«405418_j3985729650842_1_alg».proof.Proof.Gen.KernelIdeal.Points
import proofs.«405418_j3985729650842_1_alg».proof.Proof.Gen.KernelIdeal.Frame
import proofs.«405418_j3985729650842_1_alg».proof.Proof.Gen.ReferenceIdeal
import proofs.«405418_j3985729650842_1_alg».proof.Proof.Gen.Pre_finite_inputs
import proofs.«405418_j3985729650842_1_alg».proof.Proof.Gen.KernelIdeal.Value
import proofs.«405418_j3985729650842_1_alg».proof.Proof.Gen.ReferenceIdeal.Run
import proofs.«405418_j3985729650842_1_alg».proof.Proof.Gen.ReferenceIdeal.Read
import proofs.«405418_j3985729650842_1_alg».proof.Proof.IndexDomain
import proofs.«405418_j3985729650842_1_alg».proof.Proof.RefValue
import proofs.«405418_j3985729650842_1_alg».proof.Proof.KernelResult
import Idealize.ShloMosaic.Adequacy
import Idealize.ShloMosaic.Init

noncomputable section

namespace Cert.Proof

open Idealize.ShloMosaic Idealize.ShloMosaic.TcCoe Idealize.SL.Sem

/-- The kernel's program at the word level runs to the end and leaves its arguments alone, whatever the inputs. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference has no kernel: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel's text was rewritten for its reading over the extended reals. -/
theorem preserves : Cert.preserves_Kernel_KernelIdeal := trivial

/-- Both programs end with the layer `Spec.out` of the rows gathered for the two index arrays, the messages and the weight
    matrix: the kernel by `KernelResult.result`, on the index domain the precondition gives; the reference by
    `RefValue.result_eq`; and the two gathers are one term. -/
theorem algebraic : Cert.algebraic_KernelIdeal_ReferenceIdeal := by
  intro m ρ m' ρ' hpre hagree
  have hidx := fun c : Dev Cert.KernelIdeal.nD => Cert.IndexDomain.idx_range _ _ _ _ _ (hpre c)
  refine ⟨fun c => Cert.Spec.out
      (Host.gather Cert.KernelIdeal.gather_S50000x256_S200000x1_S200000x256_1_0_n_n_0_1_1256
        (m ((c : Thread Cert.KernelIdeal.nD Cert.KernelIdeal.τ).loc Cert.KernelIdeal.main_arg0))
        (Cert.KernelIdeal.TakeRows.wrapCol (m ((c : Thread Cert.KernelIdeal.nD Cert.KernelIdeal.τ).loc Cert.KernelIdeal.main_arg2))))
      (Host.gather Cert.KernelIdeal.gather_S50000x256_S200000x1_S200000x256_1_0_n_n_0_1_1256
        (m ((c : Thread Cert.KernelIdeal.nD Cert.KernelIdeal.τ).loc Cert.KernelIdeal.main_arg0))
        (Cert.KernelIdeal.TakeRows.wrapCol (m ((c : Thread Cert.KernelIdeal.nD Cert.KernelIdeal.τ).loc Cert.KernelIdeal.main_arg3))))
      (m ((c : Thread Cert.KernelIdeal.nD Cert.KernelIdeal.τ).loc Cert.KernelIdeal.main_arg1))
      (m ((c : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Result.result m c (hidx c).1 (hidx c).2), (h c).2⟩)
      (Cert.KernelIdeal.Value.run_blocks (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v16_eq, Cert.ReferenceIdeal.RefValue.result_eq,
      (hagree c).1, (hagree c).2.1, (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
